-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x768 : Shape := ⟨3, ![64, 1024, 768]⟩
abbrev S768x128 : Shape := ⟨2, ![768, 128]⟩
abbrev S128x1024 : Shape := ⟨2, ![128, 1024]⟩
abbrev S_ : Shape := ⟨0, ![]⟩

class Facts : Prop where
  bcast_S_S64x1024x768 : S_.BroadcastsInDim S64x1024x768 (![] : Fin 0 → Fin S64x1024x768.rank)
  reducesTo_S64x1024x768_S_d0_1_2 : S64x1024x768.ReducesTo [0, 1, 2] S_
  h_S_ : 0 < S_.numel
  bcast_S_S768x128 : S_.BroadcastsInDim S768x128 (![] : Fin 0 → Fin S768x128.rank)
  reducesTo_S768x128_S_d0_1 : S768x128.ReducesTo [0, 1] S_
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S64x1024x768 .f32) (main_arg1 : FVec F S768x128 .f32) (main_arg2 : FVec F S128x1024 .f32) : IVec S_ 1 :=
  let main_v0 : FVec F S64x1024x768 .f32 := Host.absf main_arg0
  let main_cst : FVec F S_ .f32 := constant S_ .f32 0x7F800000#32
  let main_v1 : FVec F S64x1024x768 .f32 := broadcastInDim S64x1024x768 ![] bcast_S_S64x1024x768 main_cst
  let main_v2 : IVec S64x1024x768 1 := cmpf .olt main_v0 main_v1
  let main_c : IVec S_ 1 := constantI S_ 1 1#1
  let main_v3 : IVec S_ 1 := (fun x v => Host.reduce IntOp.andi x v reducesTo_S64x1024x768_S_d0_1_2 h_S_) main_v2 main_c
  let main_v4 : FVec F S768x128 .f32 := Host.absf main_arg1
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  main_v13
-- ==== Kernel.lean ====
abbrev S64x1024x768 : Shape := ⟨3, ![64, 1024, 768]⟩
abbrev S768x128 : Shape := ⟨2, ![768, 128]⟩
abbrev S128x1024 : Shape := ⟨2, ![128, 1024]⟩
abbrev S1024x128 : Shape := ⟨2, ![1024, 128]⟩
abbrev S1x1024x768 : Shape := ⟨3, ![1, 1024, 768]⟩
abbrev S1024x768 : Shape := ⟨2, ![1024, 768]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x768 : Shape := ⟨2, ![256, 768]⟩
abbrev S1x256x768 : Shape := ⟨3, ![1, 256, 768]⟩

abbrev nBuf : Space → Nat
  | .hbm => 5
  | .vmem => 6
  | .smem => 0
  | _ => 0

abbrev bufTy : (tb : Table) → Fin (tcTables nBuf tb) → BufTy
  | .hbm, ⟨0, _⟩ => ⟨S64x1024x768, .f32⟩
  | .hbm, ⟨1, _⟩ => ⟨S768x128, .f32⟩
  | .hbm, ⟨2, _⟩ => ⟨S128x1024, .f32⟩
  | .hbm, ⟨3, _⟩ => ⟨S1024x128, .f32⟩
  | .hbm, ⟨4, _⟩ => ⟨S64x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S768x128, .f32⟩
  | .local _ .vmem, ⟨3, _⟩ => ⟨S1024x128, .f32⟩
  | .local _ .vmem, ⟨4, _⟩ => ⟨S1x1024x768, .f32⟩
  | .local _ .vmem, ⟨5, _⟩ => ⟨S1x1024x768, .f32⟩
  | _, _ => ⟨S64x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x1024_S1024x128_1_0 : S128x1024.Transposes [1, 0] S1024x128
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  transposes_S1024x128_p1_0_S128x1024 : S1024x128.Transposes [1, 0] S128x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S256x128 : S1024x128.Slices ![0, 0] S256x128
  reduces_S256x1024_S256 : S256x1024.Reduces [1] S256
  shapeCasts_S256_S256x1 : S256.ShapeCasts S256x1
  broadcasts_S256x1_S256x1024 : S256x1.Broadcasts S256x1024
  inb_S1x1024x768_S1x256x768_0_0_0 : ∀ a, (![0, 0, 0] : Fin 3 → Nat) a + S1x256x768.size a ≤ S1x1024x768.size a
  h_S1x256x768 : 0 < S1x256x768.numel
  shapeCasts_S1x256x768_S256x768 : S1x256x768.ShapeCasts S256x768
  shapeCasts_S256x768_S1x256x768 : S256x768.ShapeCasts S1x256x768
  slices_S1024x128_o256_0_S256x128 : S1024x128.Slices ![256, 0] S256x128
  inb_S1x1024x768_S1x256x768_0_256_0 : ∀ a, (![0, 256, 0] : Fin 3 → Nat) a + S1x256x768.size a ≤ S1x1024x768.size a
  slices_S1024x128_o512_0_S256x128 : S1024x128.Slices ![512, 0] S256x128
  inb_S1x1024x768_S1x256x768_0_512_0 : ∀ a, (![0, 512, 0] : Fin 3 → Nat) a + S1x256x768.size a ≤ S1x1024x768.size a
  slices_S1024x128_o768_0_S256x128 : S1024x128.Slices ![768, 0] S256x128
  inb_S1x1024x768_S1x256x768_0_768_0 : ∀ a, (![0, 768, 0] : Fin 3 → Nat) a + S1x256x768.size a ≤ S1x1024x768.size a
  dot_S1024x768_S768x128_S1024x128_1_0_0_1_n_n_wf : DotDims.WF S1024x768 S768x128 S1024x128 [1] [0] [0] [1] [] []
  dot_S256x128_S128x1024_S256x1024_1_0_0_1_n_n_wf : DotDims.WF S256x128 S128x1024 S256x1024 [1] [0] [0] [1] [] []
  dot_S256x1024_S1024x768_S256x768_1_0_0_1_n_n_wf : DotDims.WF S256x1024 S1024x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S64x1024x768.size a
  hwx0_0 : ∀ i : grid0.Coords, EltTy.bits .f32 = 32 ∨ (Rect.block (s := S64x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x768.size a ≤ S64x1024x768.size a
  hwx0_3 : ∀ i : grid0.Coords, EltTy.bits .f32 = 32 ∨ (Rect.block (s := S64x1024x768) S1x1024x768.size (cc0_transform_3 i) (hinb0_3 i)).WholeWords (EltTy.packing .f32)

variable [Facts₀]

def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x1024_S1024x768_S256x768_1_0_0_1_n_n : DotDims S256x1024 S1024x768 S256x768 where
  lhsContracting := [1]
  rhsContracting := [0]
  lhsNonContracting := [0]
  rhsNonContracting := [1]
  lhsBatch := []
  rhsBatch := []
  wf := dot_S256x1024_S1024x768_S256x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x768 : Shape := ⟨3, ![64, 1024, 768]⟩
abbrev S768x128 : Shape := ⟨2, ![768, 128]⟩
abbrev S128x1024 : Shape := ⟨2, ![128, 1024]⟩
abbrev S64x1024x128 : Shape := ⟨3, ![64, 1024, 128]⟩
abbrev S64x1024x1024 : Shape := ⟨3, ![64, 1024, 1024]⟩
abbrev S_ : Shape := ⟨0, ![]⟩
abbrev S64x1024 : Shape := ⟨2, ![64, 1024]⟩
abbrev S64x1x1024 : Shape := ⟨3, ![64, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S64x1024x768, .f32⟩
  | .hbm, ⟨1, _⟩ => ⟨S768x128, .f32⟩
  | .hbm, ⟨2, _⟩ => ⟨S128x1024, .f32⟩
  | .hbm, ⟨3, _⟩ => ⟨S64x1024x128, .f32⟩
  | .hbm, ⟨4, _⟩ => ⟨S64x1024x128, .f32⟩
  | .hbm, ⟨5, _⟩ => ⟨S64x1024x1024, .f32⟩
  | .hbm, ⟨6, _⟩ => ⟨S_, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S64x1x1024, .f32⟩
  | .hbm, ⟨12, _⟩ => ⟨S64x1024x1024, .f32⟩
  | .hbm, ⟨13, _⟩ => ⟨S64x1024x1024, .f32⟩
  | .hbm, ⟨14, _⟩ => ⟨S64x1024x1024, .f32⟩
  | .hbm, ⟨15, _⟩ => ⟨S_, .f32⟩
  | .hbm, ⟨16, _⟩ => ⟨S64x1024, .f32⟩
  | .hbm, ⟨17, _⟩ => ⟨S64x1x1024, .f32⟩
  | .hbm, ⟨18, _⟩ => ⟨S64x1024x1024, .f32⟩
  | .hbm, ⟨19, _⟩ => ⟨S64x1024x1024, .f32⟩
  | .hbm, ⟨20, _⟩ => ⟨S64x1024x768, .f32⟩
  | _, _ => ⟨S64x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S64x1024x1024_S64x1024_d1 : S64x1024x1024.ReducesTo [1] S64x1024
  h_S_ : 0 < S_.numel
  bcast_S_S64x1024 : S_.BroadcastsInDim S64x1024 (![] : Fin 0 → Fin S64x1024.rank)
  bcast_S64x1024_S64x1x1024_0_2 : S64x1024.BroadcastsInDim S64x1x1024 (![0, 2] : Fin 2 → Fin S64x1x1024.rank)
  bcast_S64x1x1024_S64x1024x1024_0_1_2 : S64x1x1024.BroadcastsInDim S64x1024x1024 (![0, 1, 2] : Fin 3 → Fin S64x1024x1024.rank)
  dot_S64x1024x768_S768x128_S64x1024x128_2_0_01_1_n_n_wf : DotDims.WF S64x1024x768 S768x128 S64x1024x128 [2] [0] [0, 1] [1] [] []
  dot_S64x1024x128_S128x1024_S64x1024x1024_2_0_01_1_n_n_wf : DotDims.WF S64x1024x128 S128x1024 S64x1024x1024 [2] [0] [0, 1] [1] [] []
  dot_S64x1024x1024_S64x1024x768_S64x1024x768_1_1_2_2_0_0_wf : DotDims.WF S64x1024x1024 S64x1024x768 S64x1024x768 [1] [1] [2] [2] [0] [0]

variable [Facts₀]

def dot_S64x1024x768_S768x128_S64x1024x128_2_0_01_1_n_n : DotDims S64x1024x768 S768x128 S64x1024x128 where
  lhsContracting := [2]
  rhsContracting := [0]
  lhsNonContracting := [0, 1]
  rhsNonContracting := [1]
  lhsBatch := []
  rhsBatch := []
  wf := dot_S64x1024x768_S768x128_S64x1024x128_2_0_01_1_n_n_wf
def dot_S64x1024x128_S128x1024_S64x1024x1024_2_0_01_1_n_n : DotDims S64x1024x128 S128x1024 S64x1024x1024 where
  lhsContracting := [2]
  rhsContracting := [0]
  lhsNonContracting := [0, 1]
  rhsNonContracting := [1]
  lhsBatch := []
  rhsBatch := []
  wf := dot_S64x1024x128_S128x1024_S64x1024x1024_2_0_01_1_n_n_wf
def dot_S64x1024x1024_S64x1024x768_S64x1024x768_1_1_2_2_0_0 : DotDims S64x1024x1024 S64x1024x768 S64x1024x768 where
  lhsContracting := [1]
  rhsContracting := [1]
  lhsNonContracting := [2]
  rhsNonContracting := [2]
  lhsBatch := [0]
  rhsBatch := [0]
  wf := dot_S64x1024x1024_S64x1024x768_S64x1024x768_1_1_2_2_0_0_wf

class Facts : Prop extends Facts₀ where

variable [Facts]
-- ==== Proof.Spec.lean ====
/-
  Attention pooling of one batch element, as a function on the extended reals.

  For a sequence `x : [T, D]` (T = 1024 positions, D = 768 features), a projection `w1 : [D, A]` (A = 128) and a
  second projection `w2 : [A, T]`:

    hid t a    = tanh (∑ d, x t d · w1 d a)
    score t s  = ∑ a, hid t a · w2 a s
    top s      = max over t of score t s            (started from -∞)
    ex t s     = exp (score t s - top s)
    den s      = ∑ t, ex t s
    pooled s d = ∑ t, (ex t s / den s) · x t d      -- a softmax over the SOURCE position t, per column s

  One program divides each exponential by the column's sum (`pooled`); the other multiplies it by the reciprocal
  `1 / den s` and forms the score products in the other order (`pooledK`). The two agree wherever `den s ≠ 0`,
  because division by a nonzero `y` is the product with `y⁻¹`. When every entry of `w2` is a real number the
  column sum is positive: `tanh` is real everywhere, so each score is a real number, the maximum is not `+∞`,
  every exponential is nonnegative and the one at any position is positive, hence so is their sum.
-/
import Idealize.ShloMosaic.PureOps.Ideal
import Mathlib.Algebra.Order.BigOperators.Group.Finset
import Mathlib.Data.Finset.Fold

noncomputable section

namespace Cert.AttnPool

open Idealize.ShloMosaic

/-- The word the maxima start from: `-∞`. -/
abbrev negInf : EReal := Ideal.ofBits .f32 0xFF800000#32

theorem negInf_eq : negInf = ⊥ := by simp [negInf, Ideal.ofBits, Ideal.ieee]

variable (x : Fin 1024 → Fin 768 → EReal) (w1 : Fin 768 → Fin 128 → EReal) (w2 : Fin 128 → Fin 1024 → EReal)

/-- The hidden layer: `tanh (x · w1)`. -/
def hid (t : Fin 1024) (a : Fin 128) : EReal := Ideal.tanh (∑ d : Fin 768, x t d * w1 d a)

/-- The score of source position `t` for column `s`. -/
def score (t s : Fin 1024) : EReal := ∑ a : Fin 128, hid x w1 t a * w2 a s

/-- The same score with each product's factors in the other order. -/
def scoreK (s t : Fin 1024) : EReal := ∑ a : Fin 128, w2 a s * hid x w1 t a

/-- Column `s`'s largest score over the source positions. -/
def top (s : Fin 1024) : EReal := (Finset.univ : Finset (Fin 1024)).fold max negInf fun t => score x w1 w2 t s

/-- The shifted exponential. -/
def ex (t s : Fin 1024) : EReal := Ideal.exp (score x w1 w2 t s - top x w1 w2 s)

/-- Column `s`'s normaliser. -/
def den (s : Fin 1024) : EReal := ∑ t : Fin 1024, ex x w1 w2 t s

/-- The pooled output, each weight a quotient. -/
def pooled (s : Fin 1024) (d : Fin 768) : EReal :=
  ∑ t : Fin 1024, Ideal.div (ex x w1 w2 t s) (den x w1 w2 s) * x t d

/-- The pooled output, each weight a product with the reciprocal of the normaliser. -/
def pooledK (s : Fin 1024) (d : Fin 768) : EReal :=
  ∑ t : Fin 1024, (ex x w1 w2 t s * Ideal.div 1 (den x w1 w2 s)) * x t d

theorem scoreK_eq (s t : Fin 1024) : scoreK x w1 w2 s t = score x w1 w2 t s :=
  Finset.sum_congr rfl fun _ _ => mul_comm _ _

/-! ## Multiplying by the reciprocal is dividing, off zero -/

theorem mul_div_one {e l : EReal} (hl : l ≠ 0) : e * Ideal.div 1 l = Ideal.div e l := by
  unfold Ideal.div
  rw [if_neg hl, if_neg hl, one_mul]

/-! ## The normaliser is positive when `w2` is real -/

theorem tanh_real (z : EReal) : ∃ r : ℝ, Ideal.tanh z = (r : EReal) := by
  induction z using EReal.rec with
  | bot => exact ⟨-1, by rw [Ideal.tanh_bot]; rfl⟩
  | top => exact ⟨1, by rw [Ideal.tanh_top]; rfl⟩
  | coe r => exact ⟨Real.tanh r, Ideal.tanh_coe r⟩

/-- A finite sum of real numbers is a real number. -/
theorem sum_real {ι : Type} (S : Finset ι) (f : ι → EReal) (hf : ∀ i ∈ S, ∃ r : ℝ, f i = (r : EReal)) :
    ∃ r : ℝ, ∑ i ∈ S, f i = (r : EReal) := by
  classical
  induction S using Finset.induction_on with
  | empty => exact ⟨0, by simp⟩
  | insert i S hi ih =>
    obtain ⟨a, ha⟩ := hf i (Finset.mem_insert_self i S)
    obtain ⟨b, hb⟩ := ih fun j hj => hf j (Finset.mem_insert_of_mem hj)
    exact ⟨a + b, by rw [Finset.sum_insert hi, ha, hb, EReal.coe_add]⟩

variable {w2}

theorem score_real (hw : ∀ a s, ∃ r : ℝ, w2 a s = (r : EReal)) (t s : Fin 1024) :
    ∃ r : ℝ, score x w1 w2 t s = (r : EReal) := by
  refine sum_real _ _ fun a _ => ?_
  obtain ⟨h, hh⟩ := tanh_real (∑ d : Fin 768, x t d * w1 d a)
  obtain ⟨w, hw'⟩ := hw a s
  exact ⟨h * w, by rw [hid, hh, hw', EReal.coe_mul]⟩

theorem top_ne_top (hw : ∀ a s, ∃ r : ℝ, w2 a s = (r : EReal)) (s : Fin 1024) : top x w1 w2 s ≠ ⊤ := by
  refine ne_of_lt ?_
  unfold top
  rw [Finset.fold_max_lt]
  refine ⟨by rw [negInf_eq]; exact bot_lt_top, fun t _ => ?_⟩
  obtain ⟨r, hr⟩ := score_real x w1 hw t s
  rw [hr]; exact EReal.coe_lt_top r

theorem exp_nonneg (z : EReal) : 0 ≤ Ideal.exp z := by
  induction z using EReal.rec with
  | bot => rw [Ideal.exp_bot]
  | top => rw [Ideal.exp_top]; exact le_top
  | coe r => rw [Ideal.exp_coe]; exact EReal.coe_nonneg.mpr (Real.exp_pos r).le

theorem exp_pos {z : EReal} (hz : z ≠ ⊥) : 0 < Ideal.exp z := by
  induction z using EReal.rec with
  | bot => exact absurd rfl hz
  | top => rw [Ideal.exp_top]; exact EReal.zero_lt_top
  | coe r => rw [Ideal.exp_coe]; exact EReal.coe_pos.mpr (Real.exp_pos r)

theorem ex_pos (hw : ∀ a s, ∃ r : ℝ, w2 a s = (r : EReal)) (t s : Fin 1024) : 0 < ex x w1 w2 t s := by
  refine exp_pos ?_
  obtain ⟨r, hr⟩ := score_real x w1 hw t s
  have ht := top_ne_top x w1 hw s
  rw [hr]
  induction htop : top x w1 w2 s using EReal.rec with
  | bot => rw [EReal.coe_sub_bot]; exact top_ne_bot
  | top => exact absurd htop ht
  | coe q => rw [← EReal.coe_sub]; exact EReal.coe_ne_bot _

theorem den_ne_zero (hw : ∀ a s, ∃ r : ℝ, w2 a s = (r : EReal)) (s : Fin 1024) : den x w1 w2 s ≠ 0 := by
  refine ne_of_gt (lt_of_lt_of_le (ex_pos x w1 hw 0 s) ?_)
  exact Finset.single_le_sum (f := fun t => ex x w1 w2 t s) (fun t _ => exp_nonneg _) (Finset.mem_univ 0)

/-- The two spellings of the pooled output agree when `w2` is real. -/
theorem pooledK_eq (hw : ∀ a s, ∃ r : ℝ, w2 a s = (r : EReal)) (s : Fin 1024) (d : Fin 768) :
    pooledK x w1 w2 s d = pooled x w1 w2 s d :=
  Finset.sum_congr rfl fun t _ => by rw [mul_div_one (den_ne_zero x w1 hw s)]

end Cert.AttnPool

end
-- ==== Proof.Whole.lean ====
/-
  The pooled output over the whole batch, as one function of the three argument arrays.

  Batch element `b` of the input `X : [64, 1024, 768]` is the sequence `t, d ↦ X (b, t, d)`; the two projections are
  the matrices `W1 : [768, 128]` and `W2 : [128, 1024]`. The result at `(b, s, d)` is the attention pooling of that
  batch element at `(s, d)` (`Cert.AttnPool.pooled`).
-/
import proofs.«412584_j68736656605345_3_alg».proof.Proof.Spec
import Idealize.ShloMosaic.Lib.ValueIdx

noncomputable section

namespace Cert.AttnPool

open Idealize.ShloMosaic Idealize.ShloMosaic.ValueIdx

/-- Batch element `b` as a curried function. -/
def batch (X : (⟨3, ![64, 1024, 768]⟩ : Shape).Idx → EReal) (b : Fin 64) : Fin 1024 → Fin 768 → EReal :=
  fun t d => X (ix3 b t d)

/-- A matrix as a curried function. -/
def mat {m n : ℕ} (W : (⟨2, ![m, n]⟩ : Shape).Idx → EReal) : Fin m → Fin n → EReal := fun i j => W (ix2 i j)

/-- The pooled output of every batch element. -/
def pooledAll (X : (⟨3, ![64, 1024, 768]⟩ : Shape).Idx → EReal) (W1 : (⟨2, ![768, 128]⟩ : Shape).Idx → EReal)
    (W2 : (⟨2, ![128, 1024]⟩ : Shape).Idx → EReal) : (⟨3, ![64, 1024, 768]⟩ : Shape).Idx → EReal :=
  fun i => pooled (batch X (i 0)) (mat W1) (mat W2) (i 1) (i 2)

theorem pooledAll_apply (X : (⟨3, ![64, 1024, 768]⟩ : Shape).Idx → EReal) (W1 : (⟨2, ![768, 128]⟩ : Shape).Idx → EReal)
    (W2 : (⟨2, ![128, 1024]⟩ : Shape).Idx → EReal) (b : Fin 64) (s : Fin 1024) (d : Fin 768) :
    pooledAll X W1 W2 (ix3 b s d) = pooled (batch X b) (mat W1) (mat W2) s d := rfl

end Cert.AttnPool

end
-- ==== Proof.RefValue.lean ====
/-
  The reference program's result is the pooled output of every batch element.

  The reference computes, over the whole batch at once: the hidden layer `tanh (X · W1)`; the scores `hidden · W2`;
  for each batch element and column the maximum over the source position (a reduction over the middle axis, then a
  `max` with `-∞` that changes nothing); the shifted exponentials; their sum over the source position, started
  from zero; the quotient; and the product with `X` contracted over the source position. Read at `(b, s, d)`, stage
  by stage, this is `Cert.AttnPool.pooled` of batch element `b`.
-/
import proofs.«412584_j68736656605345_3_alg».proof.Proof.Gen.ReferenceIdeal.Read
import proofs.«412584_j68736656605345_3_alg».proof.Proof.Whole
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.AttnPool

variable (X : (⟨S64x1024x768, .f32⟩ : BufTy).Contents (Elt Ideal)) (W1 : (⟨S768x128, .f32⟩ : BufTy).Contents (Elt Ideal))
  (W2 : (⟨S128x1024, .f32⟩ : BufTy).Contents (Elt Ideal))

/-! ## The index maps of the stages, by coordinates -/

theorem l0 (b : Fin 64) (t : Fin 1024) (a : Fin 128) (k : Fin 768) : lidx_main_v0 (ix3 b t a) k = ix3 b t k :=
  funext fun x => match x with | ⟨0, _⟩ => rfl | ⟨1, _⟩ => rfl | ⟨2, _⟩ => rfl
theorem r0 (b : Fin 64) (t : Fin 1024) (a : Fin 128) (k : Fin 768) : ridx_main_v0 (ix3 b t a) k = ix2 k a :=
  funext fun x => match x with | ⟨0, _⟩ => rfl | ⟨1, _⟩ => rfl
theorem l2 (b : Fin 64) (t s : Fin 1024) (k : Fin 128) : lidx_main_v2 (ix3 b t s) k = ix3 b t k :=
  funext fun x => match x with | ⟨0, _⟩ => rfl | ⟨1, _⟩ => rfl | ⟨2, _⟩ => rfl
theorem r2 (b : Fin 64) (t s : Fin 1024) (k : Fin 128) : ridx_main_v2 (ix3 b t s) k = ix2 k s :=
  funext fun x => match x with | ⟨0, _⟩ => rfl | ⟨1, _⟩ => rfl
theorem i7 (b : Fin 64) (t s : Fin 1024) : idx_main_v6 (idx_main_v7 (ix3 b t s)) = ix2 b s :=
  funext fun x => match x with | ⟨0, _⟩ => rfl | ⟨1, _⟩ => rfl
theorem i12 (b : Fin 64) (t s : Fin 1024) : idx_main_v11 (idx_main_v12 (ix3 b t s)) = ix2 b s :=
  funext fun x => match x with | ⟨0, _⟩ => rfl | ⟨1, _⟩ => rfl
theorem i10 (b : Fin 64) (s k : Fin 1024) : idx_main_v10 (ix2 b s) k = ix3 b k s :=
  funext fun x => match x with | ⟨0, _⟩ => rfl | ⟨1, _⟩ => rfl | ⟨2, _⟩ => rfl
theorem l14 (b : Fin 64) (s : Fin 1024) (d : Fin 768) (k : Fin 1024) : lidx_main_v14 (ix3 b s d) k = ix3 b k s :=
  funext fun x => match x with | ⟨0, _⟩ => rfl | ⟨1, _⟩ => rfl | ⟨2, _⟩ => rfl
theorem r14 (b : Fin 64) (s : Fin 1024) (d : Fin 768) (k : Fin 1024) : ridx_main_v14 (ix3 b s d) k = ix3 b k d :=
  funext fun x => match x with | ⟨0, _⟩ => rfl | ⟨1, _⟩ => rfl | ⟨2, _⟩ => rfl

/-- The middle axis of a `[64, 1024, 1024]` array reduces away. -/
theorem mid : S64x1024x1024.Reduces [1] S64x1024 := by decide

theorem lift_mid (b : Fin 64) (s k : Fin 1024) : mid.lift (ix2 b s) k = ix3 b k s := by
  funext c; apply Fin.ext
  match c with
  | ⟨0, _⟩ => rfl
  | ⟨1, _⟩ => rfl
  | ⟨2, _⟩ => rfl

/-! ## The stages at an index -/

theorem v1_at (b : Fin 64) (t : Fin 1024) (a : Fin 128) :
    val_main_v1 (F := Ideal) X W1 (ix3 b t a) = hid (batch X b) (mat W1) t a := by
  rw [val_main_v1_apply, val_main_v0_apply]
  unfold hid
  refine congrArg Ideal.tanh (Finset.sum_congr rfl fun k _ => ?_)
  rw [l0, r0]; rfl

theorem v2_at (b : Fin 64) (t s : Fin 1024) :
    val_main_v2 (F := Ideal) X W1 W2 (ix3 b t s) = score (batch X b) (mat W1) (mat W2) t s := by
  rw [val_main_v2_apply]
  unfold score
  refine Finset.sum_congr rfl fun k _ => ?_
  rw [l2, r2, v1_at]; rfl

/-- The maximum over the source position. -/
theorem v3_at (b : Fin 64) (s : Fin 1024) :
    val_main_v3 (F := Ideal) X W1 W2 (ix2 b s) = top (batch X b) (mat W1) (mat W2) s := by
  unfold val_main_v3
  rw [Host.reduce_eq_fold_single FloatOps.maximumf _ _ reducesTo_S64x1024x1024_S64x1024_d1 mid h_S_ (ix2 b s)]
  unfold top
  show (Finset.univ : Finset (Fin 1024)).fold max negInf (fun k => val_main_v2 (F := Ideal) X W1 W2 (mid.lift (ix2 b s) k)) = _
  exact Finset.fold_congr fun k _ =>
    (congrArg (val_main_v2 (F := Ideal) X W1 W2) (lift_mid b s k)).trans (v2_at X W1 W2 b k s)

/-- The maximum, broadcast back over the source position; the `max` with `-∞` on the way changes nothing. -/
theorem v7_at (b : Fin 64) (t s : Fin 1024) :
    val_main_v7 (F := Ideal) X W1 W2 (ix3 b t s) = top (batch X b) (mat W1) (mat W2) s := by
  rw [val_main_v7_apply, val_main_v6_apply, i7, val_main_v5_apply, v3_at]
  show max (Ideal.ofBits .f32 0xFF800000#32) (top (batch X b) (mat W1) (mat W2) s) = _
  refine max_eq_right ?_
  unfold top
  exact (Finset.le_fold_max _).mpr (Or.inl le_rfl)

theorem v9_at (b : Fin 64) (t s : Fin 1024) :
    val_main_v9 (F := Ideal) X W1 W2 (ix3 b t s) = ex (batch X b) (mat W1) (mat W2) t s := by
  rw [val_main_v9_apply, val_main_v8_apply, v2_at, v7_at]; rfl

/-- The sum over the source position, broadcast back. -/
theorem v12_at (b : Fin 64) (t s : Fin 1024) :
    val_main_v12 (F := Ideal) X W1 W2 (ix3 b t s) = den (batch X b) (mat W1) (mat W2) s := by
  rw [val_main_v12_apply, val_main_v11_apply, i12, val_main_v10_apply]
  show Ideal.ofBits .f32 0x00000000#32 + _ = _
  rw [Ideal.ofBits_zero_f32, zero_add]
  unfold den
  refine Finset.sum_congr rfl fun k _ => ?_
  rw [i10, v9_at]

theorem v13_at (b : Fin 64) (t s : Fin 1024) :
    val_main_v13 (F := Ideal) X W1 W2 (ix3 b t s)
      = Ideal.div (ex (batch X b) (mat W1) (mat W2) t s) (den (batch X b) (mat W1) (mat W2) s) := by
  rw [val_main_v13_apply, v9_at, v12_at]; rfl

/-- The reference's last stage is the pooled output of every batch element. -/
theorem ref_eq : val_main_v14 (F := Ideal) X W1 W2 = pooledAll X W1 W2 := by
  funext i
  obtain ⟨b, s, d, rfl⟩ : ∃ (b : Fin 64) (s : Fin 1024) (d : Fin 768), i = ix3 b s d := ⟨i 0, i 1, i 2, eq_ix3 i⟩
  rw [val_main_v14_apply, pooledAll_apply]
  unfold pooled
  refine Finset.sum_congr rfl fun t _ => ?_
  rw [l14, r14, v13_at]; rfl

end Cert.ReferenceIdeal.RefValue

end
-- ==== Proof.LibColumn.lean ====
/-
  Two layout readings for a vector used as a COLUMN: a length-`a` vector cast to shape `[a, 1]`, and an `[a, 1]`
  column broadcast along a second axis to `[a, b]`. Both read, at `(i, ·)`, the vector's entry `i`: the cast
  because row-major position `i · 1 + 0` is `i`, the broadcast because the unit axis is pinned at `0` and the
  long axis is carried over.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A length-`a` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Together: a vector laid along the rows of an `[a, b]` array reads, at `(p, c)`, the vector at `p`. -/
theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.KernelRows.lean ====
/-
  What the kernel's body computes for one batch element, read at an index.

  The body loads the batch element's `[1, 1024, 768]` block `v0`, the `[768, 128]` projection `v3` and the
  TRANSPOSED second projection `v9 : [1024, 128]`, and treats the 1024 output rows in four bands of 256. For the
  band that starts at row `o` it forms, with `s = o + r` the output row and `t` a source position:

    scores (r, t)  = ∑ a, v9 (s, a) · hid (t, a)           -- hid = tanh (v0 · v3), used transposed
    expo (r, t)    = exp (scores (r, t) - max over t' of scores (r, t'))
    norm r         = ∑ t, expo (r, t)
    weights (r, t) = expo (r, t) · (1 / norm r)
    out (r, d)     = ∑ t, weights (r, t) · v0 (t, d)

  so the band's entry `(r, d)` is `pooledK` of the three blocks, read as curried functions, at `(o + r, d)`.
  The four stored values of the printed body are this one function at `o = 0, 256, 512, 768`: they differ only
  in where the printed text was cut into named pieces.
-/
import proofs.«412584_j68736656605345_3_alg».proof.Proof.Gen.KernelIdeal.Skeleton
import proofs.«412584_j68736656605345_3_alg».proof.Proof.Spec
import proofs.«412584_j68736656605345_3_alg».proof.Proof.LibColumn
import proofs.«412584_j68736656605345_3_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal Cert.KernelIdeal.Gen Cert.AttnPool

/-! ## One band of rows, at any float instance -/

section band

variable {F : FTy → Type} [FloatOps F]

/-- The band's scores: rows `o … o + 255` of the transposed second projection against the transposed hidden layer. -/
def scores (o : ℕ) (hs : S1024x128.Slices ![o, 0] S256x128) (v0 : Vec F S1x1024x768 .f32) (v3 : Vec F S768x128 .f32)
    (v9 : Vec F S1024x128 .f32) : FVec F S256x1024 .f32 :=
  matmul dot_S256x128_S128x1024_S256x1024_1_0_0_1_n_n none (extractStridedSlice S256x128 ![o, 0] (k0_pay4 v9) hs)
    (k0_pay3 v0 v3) (constant S256x1024 .f32 0x00000000#32)

/-- Each score less its row's maximum, exponentiated. -/
def expo (sc : FVec F S256x1024 .f32) : FVec F S256x1024 .f32 :=
  exp (subf sc (broadcastTo S256x1024 (shapeCast S256x1 (multiReduction .maximumf [1] S256 sc 0xFF800000#32
    reduces_S256x1024_S256 (.inl rfl) rfl) shapeCasts_S256_S256x1) broadcasts_S256x1_S256x1024))

/-- Each row's sum, as a column. -/
def norm (e : FVec F S256x1024 .f32) : FVec F S256x1 .f32 :=
  shapeCast S256x1 (multiReduction .add [1] S256 e 0x00000000#32 reduces_S256x1024_S256 (.inl rfl) rfl) shapeCasts_S256_S256x1

/-- Each exponential times the reciprocal of its row's sum. -/
def weights (e : FVec F S256x1024 .f32) (l : FVec F S256x1 .f32) : FVec F S256x1024 .bf16 :=
  truncf .bf16 (mulf e (broadcastTo S256x1024 (divf (broadcast S256x1 (Scalar.ofBits .f32 0x3F800000#32)) l)
    broadcasts_S256x1_S256x1024)) bitsLt_bf16_f32

/-- The weights against the batch element, with the unit axis put back. -/
def outRows (p : FVec F S256x1024 .bf16) (xb : FVec F S1024x768 .bf16) : FVec F S1x256x768 .f32 :=
  shapeCast S1x256x768 (matmul dot_S256x1024_S1024x768_S256x768_1_0_0_1_n_n none p xb (constant S256x768 .f32 0x00000000#32))
    shapeCasts_S256x768_S1x256x768

/-- The band of output rows that starts at row `o`. -/
def rowsOut (o : ℕ) (hs : S1024x128.Slices ![o, 0] S256x128) (v0 : Vec F S1x1024x768 .f32) (v3 : Vec F S768x128 .f32)
    (v9 : Vec F S1024x128 .f32) : FVec F S1x256x768 .f32 :=
  outRows (weights (expo (scores o hs v0 v3 v9)) (norm (expo (scores o hs v0 v3 v9)))) (k0_pay2 v0)

variable (v0 : Vec F S1x1024x768 .f32) (v3 : Vec F S768x128 .f32) (v9 : Vec F S1024x128 .f32)

/-- The four stored values are the four bands. -/
theorem band0 : k0_pay5 v0 v3 v9 = rowsOut 0 slices_S1024x128_o0_0_S256x128 v0 v3 v9 := rfl
theorem band1 : k0_pay8 (k0_pay2 v0) (k0_pay6 v0 v3 v9) (k0_pay7 v0 v3 v9) = rowsOut 256 slices_S1024x128_o256_0_S256x128 v0 v3 v9 := rfl
theorem band2 : k0_pay9 (k0_pay2 v0) (k0_pay3 v0 v3) (k0_pay4 v9) = rowsOut 512 slices_S1024x128_o512_0_S256x128 v0 v3 v9 := rfl
theorem band3 : k0_pay1 (k0_pay2 v0) (k0_pay10 (k0_pay3 v0 v3) (k0_pay4 v9)) = rowsOut 768 slices_S1024x128_o768_0_S256x128 v0 v3 v9 := rfl

end band

/-! ## The band at an index, on the extended reals -/

section ideal

variable (v0 : Vec Ideal S1x1024x768 .f32) (v3 : Vec Ideal S768x128 .f32) (v9 : Vec Ideal S1024x128 .f32)

/-- The three blocks as curried functions: the batch element, the first projection, and the second projection with
    its transposition undone. -/
def xs : Fin 1024 → Fin 768 → EReal := fun t d => v0 (ix3 (0 : Fin 1) t d)
def w1s : Fin 768 → Fin 128 → EReal := fun d a => v3 (ix2 d a)
def w2s : Fin 128 → Fin 1024 → EReal := fun a s => v9 (ix2 s a)

/-- Inserting column `k` into row `r` of a `[256, 1024]` array. -/
theorem lift_row (r : Fin 256) (k : Fin 1024) : (reduces_S256x1024_S256).lift (ix1 r) k = ix2 r k := by
  funext c; apply Fin.ext
  match c with
  | ⟨0, _⟩ => rfl
  | ⟨1, _⟩ => rfl

theorem pay2_apply (t : Fin 1024) (d : Fin 768) : k0_pay2 (F := Ideal) v0 (ix2 t d) = xs v0 t d := by
  unfold k0_pay2 xs
  exact shapeCast_1ab_ab_apply v0 _ t d

theorem pay4_apply (s : Fin 1024) (a : Fin 128) : k0_pay4 (F := Ideal) v9 (ix2 s a) = w2s v9 a s := by
  unfold k0_pay4 w2s
  exact congrFun (shapeCast_self v9 _) (ix2 s a)

/-- The transposed hidden layer. -/
theorem pay3_apply (a : Fin 128) (t : Fin 1024) : k0_pay3 (F := Ideal) v0 v3 (ix2 a t) = hid (xs v0) (w1s v3) t a := by
  unfold k0_pay3
  refine (transpose_ix2_apply _ _ a t).trans ?_
  show Ideal.tanh (matmul dot_S1024x768_S768x128_S1024x128_1_0_0_1_n_n none (k0_pay2 v0) (truncf .bf16 v3 bitsLt_bf16_f32)
    (constant S1024x128 .f32 0x00000000#32) (ix2 t a)) = _
  rw [Cert.LibDot.matmul_plain_apply _ rfl rfl rfl rfl rfl rfl]
  unfold hid
  refine congrArg Ideal.tanh (Finset.sum_congr rfl fun d _ => ?_)
  rw [pay2_apply]; rfl

theorem scores_apply (o : ℕ) (hs : S1024x128.Slices ![o, 0] S256x128) (r : Fin 256) (t s : Fin 1024) (hsr : s.val = o + r.val) :
    scores (F := Ideal) o hs v0 v3 v9 (ix2 r t) = scoreK (xs v0) (w1s v3) (w2s v9) s t := by
  unfold scores
  refine (Cert.LibDot.matmul_plain_apply _ rfl rfl rfl rfl rfl rfl none _ _ r t).trans ?_
  unfold scoreK
  refine Finset.sum_congr rfl fun a _ => ?_
  rw [slice2_axis0_apply o _ hs r a s hsr, pay3_apply, pay4_apply]

theorem expo_apply (sc : FVec Ideal S256x1024 .f32) (r : Fin 256) (t : Fin 1024) :
    expo sc (ix2 r t) = Ideal.exp (sc (ix2 r t) - (Finset.univ : Finset (Fin 1024)).fold max negInf fun t' => sc (ix2 r t')) := by
  unfold expo
  refine congrArg (fun z => Ideal.exp (sc (ix2 r t) - z)) ?_
  refine ((Cert.LibColumn.column_of_vector_apply _ _ _ r t).trans
    (Ideal.multiReduction_maximumf_single sc _ _ _ _ (ix1 r))).trans ?_
  exact Finset.fold_congr fun k _ => congrArg sc (lift_row r k)

theorem norm_apply (e : FVec Ideal S256x1024 .f32) (r : Fin 256) (u : Fin 1) :
    norm e (ix2 r u) = ∑ t : Fin 1024, e (ix2 r t) := by
  unfold norm
  refine ((Cert.LibColumn.shapeCast_a_a1_apply _ _ r u).trans (Ideal.multiReduction_add_single e _ _ _ _ (ix1 r))).trans ?_
  exact Finset.sum_congr rfl fun k _ => congrArg e (lift_row r k)

theorem weights_apply (e : FVec Ideal S256x1024 .f32) (l : FVec Ideal S256x1 .f32) (r : Fin 256) (t : Fin 1024) :
    weights e l (ix2 r t) = e (ix2 r t) * Ideal.div 1 (l (ix2 r (0 : Fin 1))) := by
  unfold weights
  show e (ix2 r t) * broadcastTo S256x1024 (divf (broadcast S256x1 (Scalar.ofBits .f32 0x3F800000#32)) l)
    broadcasts_S256x1_S256x1024 (ix2 r t) = _
  rw [Cert.LibColumn.broadcastTo_a1_ab_apply]
  show e (ix2 r t) * Ideal.div (Ideal.ofBits .f32 0x3F800000#32) (l (ix2 r (0 : Fin 1))) = _
  rw [show Ideal.ofBits .f32 0x3F800000#32 = 1 from IdealRules.sign_bit.ideal_onePat .f32]

theorem outRows_apply (p : FVec Ideal S256x1024 .bf16) (xb : FVec Ideal S1024x768 .bf16) (u : Fin 1) (r : Fin 256) (d : Fin 768) :
    outRows p xb (ix3 u r d) = ∑ t : Fin 1024, p (ix2 r t) * xb (ix2 t d) := by
  unfold outRows
  exact (shapeCast_ab_1ab_apply _ _ u r d).trans (Cert.LibDot.matmul_plain_apply _ rfl rfl rfl rfl rfl rfl none p xb r d)

/-- The band that starts at row `o`, at `(r, d)`, is the pooled output at `(o + r, d)`, each weight a product with the
    reciprocal of the normaliser. -/
theorem rowsOut_apply (o : ℕ) (hs : S1024x128.Slices ![o, 0] S256x128) (u : Fin 1) (r : Fin 256) (d : Fin 768) (s : Fin 1024)
    (hsr : s.val = o + r.val) :
    rowsOut (F := Ideal) o hs v0 v3 v9 (ix3 u r d) = pooledK (xs v0) (w1s v3) (w2s v9) s d := by
  have he : ∀ t', expo (scores o hs v0 v3 v9) (ix2 r t') = ex (xs v0) (w1s v3) (w2s v9) t' s := fun t' => by
    rw [expo_apply]
    unfold ex top
    simp only [scores_apply v0 v3 v9 o hs r _ s hsr, scoreK_eq]
  unfold rowsOut
  rw [outRows_apply]
  unfold pooledK
  refine Finset.sum_congr rfl fun t _ => ?_
  rw [weights_apply, pay2_apply, norm_apply]
  simp only [he]
  rfl

end ideal

end Cert.KernelIdeal.Rows

end
-- ==== Proof.KernelWhole.lean ====
/-
  The kernel's result array after the run is the pooled output of every batch element.

  Grid point `t` handles one batch element: it stages that element's `[1, 1024, 768]` block of the input, the whole
  first projection and the whole TRANSPOSED second projection (which @main makes before the call), and writes the
  element's `[1, 1024, 768]` block of the result. The body stores that block in four bands of 256 rows; each band is
  the pooled output at its rows (`Rows.rowsOut_apply`), so the whole block is one function of the three staged
  blocks (`block_eq`). Read through the windows, the blocks are restrictions of one whole-array function of the
  arrays the call finds (`written_eq`), the 64 blocks fill the result array (`covered`), and so the array ends at that
  function (`result_eq`). Undoing the transposition, and using that the second projection holds real numbers so that
  multiplying by the reciprocal of the normaliser is dividing by it, that function is `Cert.AttnPool.pooledAll` of
  the three arguments.
-/
import proofs.«412584_j68736656605345_3_alg».proof.Proof.Gen.KernelIdeal.Value
import proofs.«412584_j68736656605345_3_alg».proof.Proof.KernelRows
import proofs.«412584_j68736656605345_3_alg».proof.Proof.Whole
import Idealize.ShloMosaic.Lib.StableHlo.Run
import Idealize.ShloMosaic.Lib.ValueLayout

set_option maxRecDepth 16384

noncomputable section

namespace Cert.KernelIdeal.Whole

open Cert.KernelIdeal Cert.KernelIdeal.Gen Cert.KernelIdeal.Rows Cert.AttnPool
open Idealize.ShloMosaic Idealize.ShloMosaic.TcCoe Idealize.ShloMosaic.ValueIdx Idealize.SL.Sem
open Idealize.ShloMosaic.Pipeline (Dat)

/-! ## One grid point's block -/

/-- The block a grid point leaves, as a function of the three staged blocks. -/
def blockOut (x0 : Vec Ideal S1x1024x768 .f32) (x1 : Vec Ideal S768x128 .f32) (x2 : Vec Ideal S1024x128 .f32) :
    S1x1024x768.Idx → EReal :=
  fun y => pooledK (xs x0) (w1s x1) (w2s x2) (y 1) (y 2)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The band stored from row `o` agrees with the block function on its rectangle. -/
theorem band_agrees (o : ℕ) (inb : ∀ a, (![0, o, 0] : Fin 3 → Nat) a + S1x256x768.size a ≤ S1x1024x768.size a)
    (hs : S1024x128.Slices ![o, 0] S256x128) (x0 : Vec Ideal S1x1024x768 .f32) (x1 : Vec Ideal S768x128 .f32)
    (x2 : Vec Ideal S1024x128 .f32) (x : S1x256x768.Idx) :
    rowsOut (F := Ideal) o hs x0 x1 x2 x
      = blockOut x0 x1 x2 ((Rect.unit (s := S1x1024x768) ![0, o, 0] S1x256x768.size inb).emb x) := by
  obtain ⟨u, r, d, rfl⟩ : ∃ (u : Fin 1) (r : Fin 256) (d : Fin 768), x = ix3 u r d := ⟨x 0, x 1, x 2, eq_ix3 x⟩
  have h2 : (Rect.unit (s := S1x1024x768) ![0, o, 0] S1x256x768.size inb).emb (ix3 u r d) 2 = d :=
    Fin.ext (by show 0 + 1 * d.val = d.val; omega)
  unfold blockOut
  rw [h2]
  exact rowsOut_apply x0 x1 x2 o hs u r d _ (by show o + 1 * r.val = o + r.val; omega)

/-- What the body leaves in the result's staging buffer is the block function of the staged blocks. -/
theorem block_eq (x0 : Vec Ideal S1x1024x768 .f32) (x1 : Vec Ideal S768x128 .f32) (x2 : Vec Ideal S1024x128 .f32) :
    out0_3 (F := Ideal) x0 x1 x2 = blockOut x0 x1 x2 := by
  funext y
  unfold out0_3
  simp only [View.ld_unit_zero (S := S1x1024x768) zeros3, View.ld_unit_zero (S := S768x128) zeros2,
    View.ld_unit_zero (S := S1024x128) zeros2]
  rw [band0, band1, band2, band3]
  refine View.canon_apply_of_pieces (Val := Elt Ideal) (blockOut x0 x1 x2) _ ?_ y (cover0_3 _ _ _ _ y)
  intro p hp x
  simp only [List.mem_cons, List.not_mem_nil, or_false] at hp
  rcases hp with rfl | rfl | rfl | rfl
  · exact band_agrees 768 inb_S1x1024x768_S1x256x768_0_768_0 slices_S1024x128_o768_0_S256x128 x0 x1 x2 x
  · exact band_agrees 512 inb_S1x1024x768_S1x256x768_0_512_0 slices_S1024x128_o512_0_S256x128 x0 x1 x2 x
  · exact band_agrees 256 inb_S1x1024x768_S1x256x768_0_256_0 slices_S1024x128_o256_0_S256x128 x0 x1 x2 x
  · exact band_agrees 0 inb_S1x1024x768_S1x256x768_0_0_0 slices_S1024x128_o0_0_S256x128 x0 x1 x2 x

/-! ## The blocks are restrictions of one whole-array function -/

/-- The pooled output of every batch element from the arrays the call finds: the input, the first projection and
    the transposed second projection. -/
def poolT (X : S64x1024x768.Idx → EReal) (W1 : S768x128.Idx → EReal) (W2T : S1024x128.Idx → EReal) :
    S64x1024x768.Idx → EReal :=
  fun i => pooledK (batch X (i 0)) (mat W1) (fun a s => W2T (ix2 s a)) (i 1) (i 2)

variable (m : (ℓ : Loc nD τ sig) → Buf (Elt Ideal) ℓ) (ρ : Dev nD → PrngReg)

/-- The printed index maps over the grid: the input and the result move together along the batch axis and stay at
    block 0 on the other axes; the two projections stay at block 0. -/
theorem index_facts : ∀ t : Fin cfg0.N, win0_0.index t (0 : Fin 3) = win0_3.index t (0 : Fin 3)
    ∧ win0_0.index t (1 : Fin 3) = 0 ∧ win0_0.index t (2 : Fin 3) = 0
    ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 63 :=
  (by decide +kernel : ∀ t : Fin grid0.N, _)

/-- Every batch element is some point's. -/
theorem index_onto : ∀ q : Fin 64, ∃ t : Fin cfg0.N, win0_3.index t = ![q.val, 0, 0] :=
  (by decide +kernel : ∀ q : Fin 64, ∃ t : Fin grid0.N, win0_3.index t = ![q.val, 0, 0])

/-- What point `t` writes back is its block of `poolT` of the arrays the call finds. -/
theorem written_eq (c : Dev nD) (t : Fin cfg0.N) :
    (dats m 0 c).flushed 3 t
      = ((cfg0.win 3).blk t).view.read (Elt Ideal) (poolT (V m c main_arg0) (V m c main_arg1) (V m c main_v0)) := by
  rw [Cert.KernelIdeal.Value.flushed3, block_eq]
  obtain ⟨e0, e1, e2, e3, e4, e5, e6, e7, e8, e9⟩ := index_facts t
  funext j
  obtain ⟨u, s, d, rfl⟩ : ∃ (u : Fin 1) (s : Fin 1024) (d : Fin 768), j = ix3 u s d := ⟨j 0, j 1, j 2, eq_ix3 j⟩
  have hu : u.val = 0 := by omega
  show blockOut (iblk m c 0 t) (iblk m c 1 t) (iblk m c 2 t) (ix3 u s d)
    = poolT (V m c main_arg0) (V m c main_arg1) (V m c main_v0) (((cfg0.win 3).blk t).view.emb (ix3 u s d))
  have hi : ((cfg0.win 3).blk t).view.emb (ix3 u s d) = ix3 (⟨win0_3.index t (0 : Fin 3), by omega⟩ : Fin 64) s d := by
    funext a; apply Fin.ext
    match a with
    | ⟨0, _⟩ => show win0_3.index t (0 : Fin 3) * 1 + 1 * u.val = win0_3.index t (0 : Fin 3); omega
    | ⟨1, _⟩ => show win0_3.index t (1 : Fin 3) * 1024 + 1 * s.val = s.val; omega
    | ⟨2, _⟩ => show win0_3.index t (2 : Fin 3) * 768 + 1 * d.val = d.val; omega
  rw [hi]
  have h0 : xs (iblk m c 0 t) = batch (V m c main_arg0) (⟨win0_3.index t (0 : Fin 3), by omega⟩ : Fin 64) := by
    funext t' d'
    show V m c main_arg0 (((cfg0.win 0).blk t).view.emb (ix3 (0 : Fin 1) t' d')) = V m c main_arg0 (ix3 _ t' d')
    refine congrArg _ (funext fun a => Fin.ext ?_)
    match a with
    | ⟨0, _⟩ => show win0_0.index t (0 : Fin 3) * 1 + 1 * 0 = win0_3.index t (0 : Fin 3); omega
    | ⟨1, _⟩ => show win0_0.index t (1 : Fin 3) * 1024 + 1 * t'.val = t'.val; omega
    | ⟨2, _⟩ => show win0_0.index t (2 : Fin 3) * 768 + 1 * d'.val = d'.val; omega
  have h1 : w1s (iblk m c 1 t) = mat (V m c main_arg1) := by
    funext d' a'
    show V m c main_arg1 (((cfg0.win 1).blk t).view.emb (ix2 d' a')) = V m c main_arg1 (ix2 d' a')
    refine congrArg _ (funext fun a => Fin.ext ?_)
    match a with
    | ⟨0, _⟩ => show win0_1.index t (0 : Fin 2) * 768 + 1 * d'.val = d'.val; omega
    | ⟨1, _⟩ => show win0_1.index t (1 : Fin 2) * 128 + 1 * a'.val = a'.val; omega
  have h2 : w2s (iblk m c 2 t) = fun a' s' => V m c main_v0 (ix2 s' a') := by
    funext a' s'
    show V m c main_v0 (((cfg0.win 2).blk t).view.emb (ix2 s' a')) = V m c main_v0 (ix2 s' a')
    refine congrArg _ (funext fun a => Fin.ext ?_)
    match a with
    | ⟨0, _⟩ => show win0_2.index t (0 : Fin 2) * 1024 + 1 * s'.val = s'.val; omega
    | ⟨1, _⟩ => show win0_2.index t (1 : Fin 2) * 128 + 1 * a'.val = a'.val; omega
  show pooledK (xs (iblk m c 0 t)) (w1s (iblk m c 1 t)) (w2s (iblk m c 2 t)) s d = _
  rw [h0, h1, h2]
  rfl

/-- An index of the result array is in point `t`'s block iff each coordinate is in the block's range. -/
theorem mem_block (t : Fin cfg0.N) (i : S64x1024x768.Idx) :
    i ∈ ((cfg0.win 3).blk t).view.set ↔ ∀ a : Fin 3, win0_3.index t a * S1x1024x768.size a ≤ (i a).val
      ∧ (i a).val < win0_3.index t a * S1x1024x768.size a + S1x1024x768.size a := by
  show i ∈ ((View.whole main_v1).slice (win0_3.rect t)).set ↔ _
  rw [View.set_slice_whole, Rect.mem_set_unit]
  exact Iff.rfl

/-- The 64 blocks fill the result array. -/
theorem covered (i : S64x1024x768.Idx) :
    ∃ t : Fin cfg0.N, (cfg0.win 3).flush t = true ∧ i ∈ ((cfg0.win 3).blk t).view.set := by
  obtain ⟨t, ht⟩ := index_onto (i 0)
  have q0 : win0_3.index t (0 : Fin 3) = (i 0).val := congrFun ht 0
  have q1 : win0_3.index t (1 : Fin 3) = 0 := congrFun ht 1
  have q2 : win0_3.index t (2 : Fin 3) = 0 := congrFun ht 2
  have b1 : (i 1).val < 1024 := (i 1).isLt
  have b2 : (i 2).val < 768 := (i 2).isLt
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 768 ≤ (i 2).val ∧ (i 2).val < win0_3.index t (2 : Fin 3) * 768 + 768; omega

/-! ## The transposed projection, and the result array -/

/-- The array window 2 stages is the second argument transposed, as @main makes it before the call. -/
theorem transposed_eq (c : Dev nD) :
    (V m c main_v0 : S1024x128.Idx → EReal)
      = transpose S1024x128 [1, 0] (m ((c : Thread nD τ).loc main_arg2)) transposes_S128x1024_S1024x128_1_0 := by
  dsimp only [Gen.V, Gen.hostOps0]; after_results

/-- THE RESULT ARRAY after the run, when the second projection holds real numbers. -/
theorem result_eq (c : Dev nD) (hw : ∀ i, ∃ r : ℝ, m ((c : Thread nD τ).loc main_arg2) i = (r : EReal)) :
    (dats m 0 c).arrAt 3 cfg0.N
      = pooledAll (m ((c : Thread nD τ).loc main_arg0)) (m ((c : Thread nD τ).loc main_arg1)) (m ((c : Thread nD τ).loc main_arg2)) := by
  rw [(dats m 0 c).arrAt_eq_of_cover 3 (poolT (V m c main_arg0) (V m c main_arg1) (V m c main_v0))
    (fun t _ => written_eq m c t) covered, V_main_arg0, V_main_arg1]
  funext i
  obtain ⟨b, s, d, rfl⟩ : ∃ (b : Fin 64) (s : Fin 1024) (d : Fin 768), i = ix3 b s d := ⟨i 0, i 1, i 2, eq_ix3 i⟩
  have hT : (fun (a : Fin 128) (s' : Fin 1024) => (V m c main_v0 : S1024x128.Idx → EReal) (ix2 s' a))
      = mat (m ((c : Thread nD τ).loc main_arg2)) := by
    funext a s'
    rw [transposed_eq]
    exact transpose_ix2_apply _ _ s' a
  show pooledK (batch (m ((c : Thread nD τ).loc main_arg0)) b) (mat (m ((c : Thread nD τ).loc main_arg1)))
    (fun a s' => (V m c main_v0 : S1024x128.Idx → EReal) (ix2 s' a)) s d = _
  rw [hT, pooledAll_apply]
  exact pooledK_eq _ _ (fun a s' => hw (ix2 a s')) s d

/-- The run, with the result array named. -/
theorem run (hw : ∀ (c : Dev nD) i, ∃ r : ℝ, m ((c : Thread nD τ).loc main_arg2) i = (r : EReal)) :
    θ_run defs (onTc (τ := τ) (main (F := Ideal))) ⟨m, fun _ => 0, ρ⟩ fun r => ∀ c : Dev nD,
      r.2.mem ((c : Thread nD τ).loc main_v1)
        = pooledAll (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c (hw c)), (h c).2⟩)
    (Cert.KernelIdeal.Value.run_blocks m ρ)

end Cert.KernelIdeal.Whole

end
-- ==== Proof.Finite.lean ====
/-
  What the precondition gives: every entry of the second projection is a real number.

  The precondition is the conjunction, over the three argument arrays, of "every entry's absolute value is below
  `+∞`". On the extended reals `|x| = max x (-x)`, which is `+∞` exactly at the two infinities; so an entry
  whose absolute value is below `+∞` is a real number. Only the third array's conjunct is used.
-/
import proofs.«412584_j68736656605345_3_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Idealize.ShloMosaic Cert.Pre_finite_inputs

instance : Subsingleton S_.Idx := ⟨fun a b => funext fun d => d.elim0⟩

/-- The word the comparison is against: `+∞`. -/
theorem posInf : Ideal.ofBits .f32 0x7F800000#32 = ⊤ := by simp [Ideal.ofBits, Ideal.ieee]

/-- An extended real whose absolute value is below `+∞` is a real number. -/
theorem real_of_abs_lt (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

variable [Facts]

/-- Under the precondition the third argument array holds real numbers. -/
theorem arg2_real (a0 : FVec Ideal S64x1024x768 .f32) (a1 : FVec Ideal S768x128 .f32) (a2 : FVec Ideal S128x1024 .f32)
    (h : fn (F := Ideal) a0 a1 a2 = fun _ => 1#1) (i : S128x1024.Idx) : ∃ r : ℝ, a2 i = (r : EReal) := by
  have h0 := congrFun h ValueIdx.ix0
  dsimp only [fn] at h0
  obtain ⟨-, h12⟩ := IntOp.andi_eq_one.mp h0
  have hi := Host.reduce_andi_all _ _ _ _ _ h12 i
  have hi' : Ideal.cmp .olt (max (a2 i) (-(a2 i))) (Ideal.ofBits .f32 0x7F800000#32) = 1#1 := hi
  rw [posInf] at hi'
  exact real_of_abs_lt (a2 i) hi'

end Cert.Pre_finite_inputs.Finite

end
-- ==== Proof.lean ====
/-
  Attention pooling: a Pallas kernel against its jnp reference, equal on the extended reals.

  For each batch element `x : [1024, 768]`, with projections `W1 : [768, 128]` and `W2 : [128, 1024]`, both programs
  compute

    out (s, d) = ∑ t, softmax over t of (tanh (x · W1) · W2) (t, s) · x (t, d),

  a softmax over the SOURCE position `t` for each column `s`. The reference does it over the whole batch at once and
  divides each shifted exponential by its column's sum. The kernel takes one batch element per grid point, works on
  the transposed second projection (made by @main before the call) in four bands of 256 output rows, forms each score
  product with its factors in the other order, and multiplies each exponential by the RECIPROCAL of the column's sum.

  On the extended reals a change of float format is the identity and a sum does not depend on its order, so the only
  step that needs an argument is `e · (1 / l) = e / l`. Division by `l` is the product with `l⁻¹` exactly when
  `l ≠ 0`; the precondition makes `W2` real, `tanh` is real everywhere, so every score is real, no column maximum is
  `+∞`, every exponential is positive and the column sum `l` is positive (Proof/Spec.lean). The kernel's result array is
  read off its generated frame run band by band, block by block (Proof/KernelRows.lean, Proof/KernelWhole.lean); the
  reference's is read off its generated run one operation at a time (Proof/RefValue.lean); both are
  `Cert.AttnPool.pooledAll` of the three arguments (Proof/Whole.lean). The idealization rewrote nothing, so
  `preserves` is trivial; the frames are the generated ones.
-/
import proofs.«412584_j68736656605345_3_alg».proof.Defs
import proofs.«412584_j68736656605345_3_alg».proof.Proof.Gen.Kernel
import proofs.«412584_j68736656605345_3_alg».proof.Proof.Gen.Kernel.Skeleton
import proofs.«412584_j68736656605345_3_alg».proof.Proof.Gen.Kernel.Launch
import proofs.«412584_j68736656605345_3_alg».proof.Proof.Gen.Kernel.Points
import proofs.«412584_j68736656605345_3_alg».proof.Proof.Gen.Kernel.Frame
import proofs.«412584_j68736656605345_3_alg».proof.Proof.Gen.KernelIdeal
import proofs.«412584_j68736656605345_3_alg».proof.Proof.Gen.KernelIdeal.Skeleton
import proofs.«412584_j68736656605345_3_alg».proof.Proof.Gen.KernelIdeal.Launch
import proofs.«412584_j68736656605345_3_alg».proof.Proof.Gen.KernelIdeal.Points
import proofs.«412584_j68736656605345_3_alg».proof.Proof.Gen.KernelIdeal.Frame
import proofs.«412584_j68736656605345_3_alg».proof.Proof.Gen.ReferenceIdeal
import proofs.«412584_j68736656605345_3_alg».proof.Proof.Gen.Pre_finite_inputs
import proofs.«412584_j68736656605345_3_alg».proof.Proof.Gen.KernelIdeal.Value
import proofs.«412584_j68736656605345_3_alg».proof.Proof.Gen.ReferenceIdeal.Run
import proofs.«412584_j68736656605345_3_alg».proof.Proof.Gen.ReferenceIdeal.Read
import proofs.«412584_j68736656605345_3_alg».proof.Proof.RefValue
import proofs.«412584_j68736656605345_3_alg».proof.Proof.KernelWhole
import proofs.«412584_j68736656605345_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, with the second projection real by the precondition, both programs end with the pooled
    output of every batch element in their result arrays. -/
theorem algebraic : Cert.algebraic_KernelIdeal_ReferenceIdeal := by
  intro m ρ m' ρ' hpre hagree
  have hw : ∀ (c : Dev Cert.KernelIdeal.nD) i, ∃ r : ℝ,
      m ((c : Thread Cert.KernelIdeal.nD Cert.KernelIdeal.τ).loc Cert.KernelIdeal.main_arg2) i = (r : EReal) :=
    fun c i => Cert.Pre_finite_inputs.Finite.arg2_real _ _ _ (hpre c) i
  refine ⟨_, Cert.KernelIdeal.Whole.run m ρ hw, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
